-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_

variable [Facts]

def fn_part4 {F : FTy → Type} [FloatOps F] (main_arg15 : FVec F S512x512 .f32) (main_arg16 : FVec F S512 .f32) (main_arg17 : FVec F S512x1 .f32) (main_v63 : IVec S_ 1) (main_v67 : IVec S_ 1) : IVec S_ 1 :=
  let main_v68 : IVec S_ 1 := andi main_v63 main_v67
  let main_v69 : FVec F S512x512 .f32 := Host.absf main_arg15
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x1 .f32 := Host.absf main_arg17
  let main_cst_30 : FVec F S_ .f32 := constant S_ .f32 0x7F800000#32
  let main_v80 : FVec F S512x1 .f32 := broadcastInDim S512x1 ![] bcast_S_S512x1 main_cst_30
  let main_v81 : IVec S512x1 1 := cmpf .olt main_v79 main_v80
  let main_c_31 : IVec S_ 1 := constantI S_ 1 1#1
  let main_v82 : IVec S_ 1 := (fun x v => Host.reduce IntOp.andi x v reducesTo_S512x1_S_d0_1 h_S_) main_v81 main_c_31
  let main_v83 : IVec S_ 1 := andi main_v78 main_v82
  main_v83

def fn_part3 {F : FTy → Type} [FloatOps F] (main_arg12 : FVec F S512x1 .f32) (main_arg13 : FVec F S512x512 .f32) (main_arg14 : FVec F S512 .f32) (main_arg15 : FVec F S512x512 .f32) (main_arg16 : FVec F S512 .f32) (main_arg17 : FVec F S512x1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1 .f32 := Host.absf main_arg12
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S512x512 .f32 := Host.absf main_arg13
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_v63 main_v67

def fn_part2 {F : FTy → Type} [FloatOps F] (main_arg8 : FVec F S512x512 .f32) (main_arg9 : FVec F S512 .f32) (main_arg10 : FVec F S512x512 .f32) (main_arg11 : FVec F S512 .f32) (main_arg12 : FVec F S512x1 .f32) (main_arg13 : FVec F S512x512 .f32) (main_arg14 : FVec F S512 .f32) (main_arg15 : FVec F S512x512 .f32) (main_arg16 : FVec F S512 .f32) (main_arg17 : FVec F S512x1 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_v48 main_v49 main_v50

def fn_part1 {F : FTy → Type} [FloatOps F] (main_arg5 : FVec F S1024 .f32) (main_arg6 : FVec F S1024x512 .f32) (main_arg7 : FVec F S512 .f32) (main_arg8 : FVec F S512x512 .f32) (main_arg9 : FVec F S512 .f32) (main_arg10 : FVec F S512x512 .f32) (main_arg11 : FVec F S512 .f32) (main_arg12 : FVec F S512x1 .f32) (main_arg13 : FVec F S512x512 .f32) (main_arg14 : FVec F S512 .f32) (main_arg15 : FVec F S512x512 .f32) (main_arg16 : FVec F S512 .f32) (main_arg17 : FVec F S512x1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S65536x512 .f32) (main_arg1 : IVec S65536 32) (main_arg2 : FVec F S512x1024 .f32) (main_arg3 : FVec F S1024 .f32) (main_arg4 : FVec F S1024x1024 .f32) (main_arg5 : FVec F S1024 .f32) (main_arg6 : FVec F S1024x512 .f32) (main_arg7 : FVec F S512 .f32) (main_arg8 : FVec F S512x512 .f32) (main_arg9 : FVec F S512 .f32) (main_arg10 : FVec F S512x512 .f32) (main_arg11 : FVec F S512 .f32) (main_arg12 : FVec F S512x1 .f32) (main_arg13 : FVec F S512x512 .f32) (main_arg14 : FVec F S512 .f32) (main_arg15 : FVec F S512x512 .f32) (main_arg16 : FVec F S512 .f32) (main_arg17 : FVec F S512x1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S65536x512 : Shape := ⟨2, ![65536, 512]⟩
abbrev S65536 : Shape := ⟨1, ![65536]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S65536x1 : Shape := ⟨2, ![65536, 1]⟩
abbrev S1x1024 : Shape := ⟨2, ![1, 1024]⟩
abbrev S1x512 : Shape := ⟨2, ![1, 512]⟩
abbrev S1024x1 : Shape := ⟨2, ![1024, 1]⟩

abbrev nBuf : Space → Nat
  | .hbm => 38
  | .vmem => 24
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S512x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x1, .f32⟩
  | .hbm, ⟨18, _⟩ => ⟨S65536x1, .i32⟩
  | .hbm, ⟨19, _⟩ => ⟨S1x1024, .f32⟩
  | .hbm, ⟨20, _⟩ => ⟨S1x1024, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S512x1024, .bf16⟩
  | .hbm, ⟨27, _⟩ => ⟨S1024x1024, .bf16⟩
  | .hbm, ⟨28, _⟩ => ⟨S1024x512, .bf16⟩
  | .hbm, ⟨29, _⟩ => ⟨S512x512, .bf16⟩
  | .hbm, ⟨30, _⟩ => ⟨S512x512, .bf16⟩
  | .hbm, ⟨31, _⟩ => ⟨S512x1, .bf16⟩
  | .hbm, ⟨32, _⟩ => ⟨S512x512, .bf16⟩
  | .hbm, ⟨33, _⟩ => ⟨S512x512, .bf16⟩
  | .hbm, ⟨34, _⟩ => ⟨S512x1, .bf16⟩
  | .hbm, ⟨35, _⟩ => ⟨S65536x1, .f32⟩
  | .hbm, ⟨36, _⟩ => ⟨S65536x512, .f32⟩
  | .hbm, ⟨37, _⟩ => ⟨S65536, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S512x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S512x1, .bf16⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S512x1, .bf16⟩
  | .local _ .vmem, ⟨20, _⟩ => ⟨S1024x1, .f32⟩
  | .local _ .vmem, ⟨21, _⟩ => ⟨S1024x1, .f32⟩
  | .local _ .vmem, ⟨22, _⟩ => ⟨S1024x512, .f32⟩
  | .local _ .vmem, ⟨23, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S65536_S65536x1 : S65536.ShapeCasts S65536x1
  shapeCasts_S1024_S1x1024 : S1024.ShapeCasts S1x1024
  shapeCasts_S512_S1x512 : S512.ShapeCasts S1x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S65536x1_S65536 : S65536x1.ShapeCasts S65536
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S512x1.size a
  hwx0_12 : ∀ i : grid0.Coords, EltTy.bits .bf16 = 32 ∨ (Rect.block (s := S512x1) S512x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .bf16 = 32 ∨ (Rect.block (s := S512x512) S512x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S512x1.size a
  hwx0_17 : ∀ i : grid0.Coords, EltTy.bits .bf16 = 32 ∨ (Rect.block (s := S512x1) S512x1.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x1.size a ≤ S65536x1.size a
  hwx0_18 : ∀ i : grid0.Coords, EltTy.bits .f32 = 32 ∨ (Rect.block (s := S65536x1) S1024x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x512.size a ≤ S65536x512.size a
  hwx0_19 : ∀ i : grid0.Coords, EltTy.bits .f32 = 32 ∨ (Rect.block (s := S65536x512) S1024x512.size (cc0_transform_19 i) (hinb0_19 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v16) S512x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17_0) S1024x1.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v17_1) S1024x512.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S65536x1024 : Shape := ⟨2, ![65536, 1024]⟩
abbrev S1x1024 : Shape := ⟨2, ![1, 1024]⟩
abbrev S_ : Shape := ⟨0, ![]⟩
abbrev S1x512 : Shape := ⟨2, ![1, 512]⟩
abbrev S65536x1 : Shape := ⟨2, ![65536, 1]⟩

abbrev nBuf : Space → Nat
  | .hbm => 72
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S512x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x1, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x512, .f32⟩
  | .hbm, ⟨33, _⟩ => ⟨S1x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S1x512, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S1x512, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S65536x512, .f32⟩
  | .hbm, ⟨49, _⟩ => ⟨S65536x512, .f32⟩
  | .hbm, ⟨50, _⟩ => ⟨S65536x1, .f32⟩
  | .hbm, ⟨51, _⟩ => ⟨S65536, .f32⟩
  | .hbm, ⟨52, _⟩ => ⟨S65536x512, .f32⟩
  | .hbm, ⟨53, _⟩ => ⟨S1x512, .f32⟩
  | .hbm, ⟨54, _⟩ => ⟨S65536x512, .f32⟩
  | .hbm, ⟨55, _⟩ => ⟨S65536x512, .f32⟩
  | .hbm, ⟨56, _⟩ => ⟨S_, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S1x512, .f32⟩
  | .hbm, ⟨61, _⟩ => ⟨S65536x512, .f32⟩
  | .hbm, ⟨62, _⟩ => ⟨S65536x512, .f32⟩
  | .hbm, ⟨63, _⟩ => ⟨S_, .f32⟩
  | .hbm, ⟨64, _⟩ => ⟨S65536x512, .f32⟩
  | .hbm, ⟨65, _⟩ => ⟨S65536x512, .f32⟩
  | .hbm, ⟨66, _⟩ => ⟨S65536x1, .f32⟩
  | .hbm, ⟨67, _⟩ => ⟨S65536, .f32⟩
  | .hbm, ⟨68, _⟩ => ⟨S_, .i32⟩
  | .hbm, ⟨69, _⟩ => ⟨S65536, .i32⟩
  | .hbm, ⟨70, _⟩ => ⟨S65536, .i1⟩
  | .hbm, ⟨71, _⟩ => ⟨S65536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_cst : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call4_cst : Ref sig .tc := ⟨.hbm, 56, rfl⟩
abbrev main_call4_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call5_cst : Ref sig .tc := ⟨.hbm, 63, rfl⟩
abbrev main_call5_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  shapeCasts_S65536x1_S65536 : S65536x1.ShapeCasts S65536
  bcast_S_S65536 : S_.BroadcastsInDim S65536 (![] : Fin 0 → Fin S65536.rank)
  dot_S65536x512_S512x1024_S65536x1024_1_0_0_1_n_n_wf : DotDims.WF S65536x512 S512x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x512_S65536x512_1_0_0_1_n_n_wf : DotDims.WF S65536x1024 S1024x512 S65536x512 [1] [0] [0] [1] [] []
  dot_S65536x512_S512x512_S65536x512_1_0_0_1_n_n_wf : DotDims.WF S65536x512 S512x512 S65536x512 [1] [0] [0] [1] [] []
  dot_S65536x512_S512x1_S65536x1_1_0_0_1_n_n_wf : DotDims.WF S65536x512 S512x1 S65536x1 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf

class Facts : Prop extends Facts₀ where

variable [Facts]
-- ==== Proof.LibPlainDot.lean ====
/-
  A plain matrix product read at one entry, on the extended reals.

  A contraction whose dimension numbers are those of rows × inner by inner × columns (the left operand contracts
  its second axis, the right operand its first, no batch axis) sums, at the result's entry (p, q), the products
  l (p, k) · r (k, q) over the inner extent. The dimension numbers' own index maps are undone once here, for any
  extents, so that every matrix product of this form is read by one lemma whatever its sizes.
-/
import Idealize.ShloMosaic.Lib.ValueIdx
import Idealize.ShloMosaic.PureOps.Ideal.Laws

noncomputable section

open scoped BigOperators
open Idealize.ShloMosaic Idealize.ShloMosaic.ValueIdx

namespace Cert.Lib.PlainDot

variable {M K N : ℕ}

/-- The dimension numbers of a plain product of an M × K by a K × N matrix: the left operand's axis 1 is contracted
    with the right operand's axis 0, the left's axis 0 and the right's axis 1 remain, and there is no batch axis. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The plain dimension numbers, spelt out over a witness of their well-formedness. -/
abbrev lit (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate is the result's row coordinate. -/
theorem lhs_row (wf : DotDims.WF ⟨2, ![M, K]⟩ ⟨2, ![K, N]⟩ ⟨2, ![M, N]⟩ [1] [0] [0] [1] [] [])
    (j : (⟨2, ![M, N]⟩ : Shape).Idx) (k : (lit wf).contr.Idx) : ((lit wf).lhsIdx j k 0).val = (j 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The right operand's column coordinate is the result's column coordinate. -/
theorem rhs_col (wf : DotDims.WF ⟨2, ![M, K]⟩ ⟨2, ![K, N]⟩ ⟨2, ![M, N]⟩ [1] [0] [0] [1] [] [])
    (j : (⟨2, ![M, N]⟩ : Shape).Idx) (k : (lit wf).contr.Idx) : ((lit wf).rhsIdx j k 1).val = (j 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum at entry (p, q) is the sum over the inner index k of l (p, k) · r (k, q). -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  show ∑ k : (lit wf).contr.Idx, l ((lit wf).lhsIdx (ix2 p q) k) * r ((lit wf).rhsIdx (ix2 p q) k) = _
  have hr : (lit wf).contr.rank = 1 := rfl
  have hs : (lit wf).contr.size ⟨0, by omega⟩ = K := rfl
  rw [← Equiv.sum_comp (contrEquiv1 (lit wf) K hr hs).symm]
  refine Finset.sum_congr rfl fun k _ => ?_
  have hk := contrEquiv1_symm_val (lit wf) K hr hs k
  have el : (lit wf).lhsIdx (ix2 p q) ((contrEquiv1 (lit wf) K hr hs).symm k) = ix2 p k := funext fun a => Fin.ext (by
    match a with
    | ⟨0, _⟩ => exact lhs_row wf _ _
    | ⟨1, _⟩ => exact ((lit wf).lhsIdx_val_of_single rfl _ _).trans hk)
  have er : (lit wf).rhsIdx (ix2 p q) ((contrEquiv1 (lit wf) K hr hs).symm k) = ix2 k q := funext fun a => Fin.ext (by
    match a with
    | ⟨0, _⟩ => exact ((lit wf).rhsIdx_val_of_single rfl _ _).trans hk
    | ⟨1, _⟩ => exact rhs_col wf _ _)
  rw [el, er]

/-- A matrix product accumulated into the zero splat, read at entry (p, q). -/
theorem matmul_zero_apply (d : DotDims ⟨2, ![M, K]⟩ ⟨2, ![K, N]⟩ ⟨2, ![M, N]⟩) (h : IsPlain d) {φ₁ φ₂ : FTy}
    (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, l (ix2 p k) * r (ix2 k q) :=
  (Ideal.matmul_constant_zero_apply d none l r (ix2 p q)).trans (sum_contr d h l r p q)

end Cert.Lib.PlainDot

end
-- ==== Proof.Spec.lean ====
/-
  The two-headed multilayer perceptron, row by row, on the extended reals.

  One row x of the input goes through three dense layers (the first two followed by max(·, 0)) to the shared
  representation; that goes through each of two heads (two dense layers with max(·, 0), then a product with a
  column, no bias), and the row's integer label picks the first head's value where it is zero and the second's
  elsewhere. A dense layer at column j is the sum over k of x k · W (k, j), plus b j. Every value of the result
  at row n depends on row n of the input, on the label at n, and on the weights: so the same functions describe
  one block of rows and the whole array.
-/
import Idealize.ShloMosaic.Lib.ValueIdx
import Idealize.ShloMosaic.PureOps.Ideal.Laws

noncomputable section

open scoped BigOperators
open Idealize.ShloMosaic Idealize.ShloMosaic.ValueIdx

namespace Cert.Mlp

/-- A dense layer at column j: the row times column j of the weights, plus the bias at j. -/
def dense {K N : ℕ} (x : Fin K → EReal) (W : (⟨2, ![K, N]⟩ : Shape).Idx → EReal) (b : Fin N → EReal) (j : Fin N) : EReal :=
  (∑ k : Fin K, x k * W (ix2 k j)) + b j

/-- A dense layer followed by max(·, 0). -/
def hidden {K N : ℕ} (x : Fin K → EReal) (W : (⟨2, ![K, N]⟩ : Shape).Idx → EReal) (b : Fin N → EReal) (j : Fin N) : EReal :=
  max (dense x W b j) 0

/-- The shared representation of a row: two hidden layers and a dense one. -/
def shared {D H1 H2 S : ℕ} (x : Fin D → EReal)
    (W0 : (⟨2, ![D, H1]⟩ : Shape).Idx → EReal) (b0 : Fin H1 → EReal)
    (W1 : (⟨2, ![H1, H2]⟩ : Shape).Idx → EReal) (b1 : Fin H2 → EReal)
    (W2 : (⟨2, ![H2, S]⟩ : Shape).Idx → EReal) (b2 : Fin S → EReal) : Fin S → EReal :=
  dense (hidden (hidden x W0 b0) W1 b1) W2 b2

/-- One head's value on a shared representation: two hidden layers, then the product with the one output column. -/
def head {S H : ℕ} (h : Fin S → EReal)
    (U0 : (⟨2, ![S, H]⟩ : Shape).Idx → EReal) (u0 : Fin H → EReal)
    (U1 : (⟨2, ![H, H]⟩ : Shape).Idx → EReal) (u1 : Fin H → EReal)
    (U2 : (⟨2, ![H, 1]⟩ : Shape).Idx → EReal) : EReal :=
  ∑ k : Fin H, hidden (hidden h U0 u0) U1 u1 k * U2 (ix2 k (0 : Fin 1))

/-- The label's choice between the two heads: the first where the label is the zero word, else the second. -/
def pick (t : BitVec 32) (y0 y1 : EReal) : EReal := Scalar.select (IntOp.cmpi .eq t 0#32) y0 y1

/-- The shared representation of every row of the input, as one array: entry (n, q) is the shared representation of
    row n at column q. The biases are vectors. -/
def outOf (X : (⟨2, ![65536, 512]⟩ : Shape).Idx → EReal)
    (W0 : (⟨2, ![512, 1024]⟩ : Shape).Idx → EReal) (b0 : (⟨1, ![1024]⟩ : Shape).Idx → EReal)
    (W1 : (⟨2, ![1024, 1024]⟩ : Shape).Idx → EReal) (b1 : (⟨1, ![1024]⟩ : Shape).Idx → EReal)
    (W2 : (⟨2, ![1024, 512]⟩ : Shape).Idx → EReal) (b2 : (⟨1, ![512]⟩ : Shape).Idx → EReal) :
    (⟨2, ![65536, 512]⟩ : Shape).Idx → EReal := fun i =>
  shared (fun k => X (ix2 (⟨(i 0).val, (i 0).isLt⟩ : Fin 65536) k)) W0 (fun j => b0 (ix1 j)) W1 (fun j => b1 (ix1 j))
    W2 (fun j => b2 (ix1 j)) (⟨(i 1).val, (i 1).isLt⟩ : Fin 512)

/-- The result for every row, as one vector: entry n is the label's choice at n between the two heads on row n's
    shared representation. -/
def yOf (X : (⟨2, ![65536, 512]⟩ : Shape).Idx → EReal) (T : (⟨1, ![65536]⟩ : Shape).Idx → BitVec 32)
    (W0 : (⟨2, ![512, 1024]⟩ : Shape).Idx → EReal) (b0 : (⟨1, ![1024]⟩ : Shape).Idx → EReal)
    (W1 : (⟨2, ![1024, 1024]⟩ : Shape).Idx → EReal) (b1 : (⟨1, ![1024]⟩ : Shape).Idx → EReal)
    (W2 : (⟨2, ![1024, 512]⟩ : Shape).Idx → EReal) (b2 : (⟨1, ![512]⟩ : Shape).Idx → EReal)
    (A0 : (⟨2, ![512, 512]⟩ : Shape).Idx → EReal) (a0 : (⟨1, ![512]⟩ : Shape).Idx → EReal)
    (A1 : (⟨2, ![512, 512]⟩ : Shape).Idx → EReal) (a1 : (⟨1, ![512]⟩ : Shape).Idx → EReal)
    (A2 : (⟨2, ![512, 1]⟩ : Shape).Idx → EReal)
    (C0 : (⟨2, ![512, 512]⟩ : Shape).Idx → EReal) (c0 : (⟨1, ![512]⟩ : Shape).Idx → EReal)
    (C1 : (⟨2, ![512, 512]⟩ : Shape).Idx → EReal) (c1 : (⟨1, ![512]⟩ : Shape).Idx → EReal)
    (C2 : (⟨2, ![512, 1]⟩ : Shape).Idx → EReal) :
    (⟨1, ![65536]⟩ : Shape).Idx → EReal := fun i =>
  pick (T (ix1 (⟨(i 0).val, (i 0).isLt⟩ : Fin 65536)))
    (head (shared (fun k => X (ix2 (⟨(i 0).val, (i 0).isLt⟩ : Fin 65536) k)) W0 (fun j => b0 (ix1 j)) W1 (fun j => b1 (ix1 j))
        W2 (fun j => b2 (ix1 j)))
      A0 (fun j => a0 (ix1 j)) A1 (fun j => a1 (ix1 j)) A2)
    (head (shared (fun k => X (ix2 (⟨(i 0).val, (i 0).isLt⟩ : Fin 65536) k)) W0 (fun j => b0 (ix1 j)) W1 (fun j => b1 (ix1 j))
        W2 (fun j => b2 (ix1 j)))
      C0 (fun j => c0 (ix1 j)) C1 (fun j => c1 (ix1 j)) C2)

end Cert.Mlp

end
-- ==== Proof.KernelBlock.lean ====
/-
  The kernel's block, read at one entry.

  At a grid point the kernel holds a block of 1024 rows of the input and all the weights. What it stores for the
  shared representation at (p, q) is the shared representation of the block's row p at column q; what it stores
  for the result at (p, 0) is the label's choice between the two heads on that row's shared representation. The
  casts to the narrow float format are the identity on the extended reals, each matrix product into the zero
  splat is a plain sum of products, and each bias is one row broadcast down the block.
-/
import proofs.«113489_j48747878810213_1_alg».proof.Proof.Gen.KernelIdeal.Skeleton
import proofs.«113489_j48747878810213_1_alg».proof.Proof.LibPlainDot
import proofs.«113489_j48747878810213_1_alg».proof.Proof.Spec
import Idealize.ShloMosaic.Lib.ValueLayout
import Idealize.ShloMosaic.Lib.Pipeline.Value

noncomputable section

open scoped BigOperators
open Idealize.ShloMosaic Idealize.ShloMosaic.ValueIdx

namespace Cert.KernelIdeal.Block

open Cert.KernelIdeal Cert.KernelIdeal.Gen Cert.Lib.PlainDot

theorem plainA : IsPlain dot_S1024x512_S512x1024_S1024x1024_1_0_0_1_n_n := ⟨rfl, rfl, rfl, rfl, rfl, rfl⟩
theorem plainB : IsPlain dot_S1024x1024_S1024x1024_S1024x1024_1_0_0_1_n_n := ⟨rfl, rfl, rfl, rfl, rfl, rfl⟩
theorem plainC : IsPlain dot_S1024x1024_S1024x512_S1024x512_1_0_0_1_n_n := ⟨rfl, rfl, rfl, rfl, rfl, rfl⟩
theorem plainD : IsPlain dot_S1024x512_S512x512_S1024x512_1_0_0_1_n_n := ⟨rfl, rfl, rfl, rfl, rfl, rfl⟩
theorem plainE : IsPlain dot_S1024x512_S512x1_S1024x1_1_0_0_1_n_n := ⟨rfl, rfl, rfl, rfl, rfl, rfl⟩

/-- The shared representation's payload at (p, q): the shared representation of row p at column q. -/
theorem pay2_apply (x0 : FVec Ideal S1024x512 .f32) (x2 : FVec Ideal S512x1024 .bf16) (x3 : FVec Ideal S1x1024 .f32)
    (x4 : FVec Ideal S1024x1024 .bf16) (x5 : FVec Ideal S1x1024 .f32) (x6 : FVec Ideal S1024x512 .bf16)
    (x7 : FVec Ideal S1x512 .f32) (p : Fin 1024) (q : Fin 512) :
    k0_pay2 (F := Ideal) x0 x2 x3 x4 x5 x6 x7 (ix2 p q)
      = Cert.Mlp.shared (fun k => x0 (ix2 p k)) x2 (fun j => x3 (ix2 (0 : Fin 1) j)) x4 (fun j => x5 (ix2 (0 : Fin 1) j))
          x6 (fun j => x7 (ix2 (0 : Fin 1) j)) q := by
  unfold k0_pay2
  simp only [shapeCast_self]
  simp only [addf_apply, matmul_zero_apply _ plainA, matmul_zero_apply _ plainB, matmul_zero_apply _ plainC,
    truncf_apply, maximumf_apply, broadcast_apply, broadcastTo_1b_ab_apply]
  simp only [Ideal.ofBits_def, Ideal.ofBits_zero_f32]
  rfl

/-- An integer comparison of vectors at an entry compares the entries. -/
theorem cmpi_apply {s : Shape} {w : ℕ} (pr : CmpIPredicate) (a b : IVec s w) (i : s.Idx) :
    cmpi pr a b i = IntOp.cmpi pr (a i) (b i) := rfl

/-- The result's payload at (p, 0): the label at row p picks between the two heads on row p's shared representation. -/
theorem pay1_apply (x0 : FVec Ideal S1024x512 .f32) (x1 : Vec Ideal S1024x1 .i32) (x2 : FVec Ideal S512x1024 .bf16)
    (x3 : FVec Ideal S1x1024 .f32) (x4 : FVec Ideal S1024x1024 .bf16) (x5 : FVec Ideal S1x1024 .f32)
    (x6 : FVec Ideal S1024x512 .bf16) (x7 : FVec Ideal S1x512 .f32) (x8 : FVec Ideal S512x512 .bf16)
    (x9 : FVec Ideal S1x512 .f32) (x10 : FVec Ideal S512x512 .bf16) (x11 : FVec Ideal S1x512 .f32)
    (x12 : FVec Ideal S512x1 .bf16) (x13 : FVec Ideal S512x512 .bf16) (x14 : FVec Ideal S1x512 .f32)
    (x15 : FVec Ideal S512x512 .bf16) (x16 : FVec Ideal S1x512 .f32) (x17 : FVec Ideal S512x1 .bf16) (p : Fin 1024) :
    k0_pay1 (F := Ideal) (k0_pay5 (k0_pay4 x0 x2 x3 x4 x5 x6 x7 x8) x9 x10 x11 x12)
        (k0_pay6 (k0_pay3 x0 x2 x3 x4 x5 x6 x7) x13 x14 x15 x16) x17 x1 (ix2 p (0 : Fin 1))
      = Cert.Mlp.pick (x1 (ix2 p (0 : Fin 1)))
          (Cert.Mlp.head (Cert.Mlp.shared (fun k => x0 (ix2 p k)) x2 (fun j => x3 (ix2 (0 : Fin 1) j)) x4
              (fun j => x5 (ix2 (0 : Fin 1) j)) x6 (fun j => x7 (ix2 (0 : Fin 1) j)))
            x8 (fun j => x9 (ix2 (0 : Fin 1) j)) x10 (fun j => x11 (ix2 (0 : Fin 1) j)) x12)
          (Cert.Mlp.head (Cert.Mlp.shared (fun k => x0 (ix2 p k)) x2 (fun j => x3 (ix2 (0 : Fin 1) j)) x4
              (fun j => x5 (ix2 (0 : Fin 1) j)) x6 (fun j => x7 (ix2 (0 : Fin 1) j)))
            x13 (fun j => x14 (ix2 (0 : Fin 1) j)) x15 (fun j => x16 (ix2 (0 : Fin 1) j)) x17) := by
  unfold k0_pay1 k0_pay5 k0_pay4 k0_pay6 k0_pay3
  simp only [shapeCast_self]
  simp only [select_apply, cmpi_apply, addf_apply, matmul_zero_apply _ plainD, matmul_zero_apply _ plainE,
    truncf_apply, maximumf_apply, broadcast_apply, broadcastTo_1b_ab_apply, pay2_apply]
  simp only [Ideal.ofBits_def, Ideal.ofBits_zero_f32]
  rfl

end Cert.KernelIdeal.Block

end
-- ==== Proof.KernelRead.lean ====
/-
  Each window's block at a grid point, as a piece of the array the region finds.

  The grid has 64 points. The input's window and the label's window move with the point: block t is rows
  1024·t … 1024·t + 1023. Every weight's and every bias's window stays on block (0, 0), which is the whole array.
-/
import proofs.«113489_j48747878810213_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Read

open Cert.KernelIdeal Cert.KernelIdeal.Gen

variable {F : FTy → Type} [FloatOps F]
variable (m : (ℓ : Loc nD τ sig) → Buf (Elt F) ℓ)

/-- A window whose block index is (0, 0) at every point, with a block as large as its array, reads the whole array:
    an entry of the block sits in the array at its own coordinates. -/
local macro "resident_block" w:term "," arr:term "," t:term : tactic => `(tactic| (
  funext y
  unfold iblk
  rw [View.read_apply]
  refine congrArg (V m _ $arr) (funext fun a => Fin.ext ?_)
  exact Pipeline.Window.rect_emb_val_of_index_zero $w $t a
    ((by decide +kernel : ∀ t' : Fin grid0.N, ∀ a' : Fin 2, Pipeline.Window.index $w t' a' = 0) $t a) y))

theorem iblk2 (c : Dev nD) (t : Fin cfg0.N) : (iblk m c 2 t : Vec F S512x1024 .bf16) = V m c main_v8 := by
  resident_block win0_2, main_v8, t
theorem iblk3 (c : Dev nD) (t : Fin cfg0.N) : (iblk m c 3 t : Vec F S1x1024 .f32) = V m c main_v1 := by
  resident_block win0_3, main_v1, t
theorem iblk4 (c : Dev nD) (t : Fin cfg0.N) : (iblk m c 4 t : Vec F S1024x1024 .bf16) = V m c main_v9 := by
  resident_block win0_4, main_v9, t
theorem iblk5 (c : Dev nD) (t : Fin cfg0.N) : (iblk m c 5 t : Vec F S1x1024 .f32) = V m c main_v2 := by
  resident_block win0_5, main_v2, t
theorem iblk6 (c : Dev nD) (t : Fin cfg0.N) : (iblk m c 6 t : Vec F S1024x512 .bf16) = V m c main_v10 := by
  resident_block win0_6, main_v10, t
theorem iblk7 (c : Dev nD) (t : Fin cfg0.N) : (iblk m c 7 t : Vec F S1x512 .f32) = V m c main_v3 := by
  resident_block win0_7, main_v3, t
theorem iblk8 (c : Dev nD) (t : Fin cfg0.N) : (iblk m c 8 t : Vec F S512x512 .bf16) = V m c main_v11 := by
  resident_block win0_8, main_v11, t
theorem iblk9 (c : Dev nD) (t : Fin cfg0.N) : (iblk m c 9 t : Vec F S1x512 .f32) = V m c main_v4 := by
  resident_block win0_9, main_v4, t
theorem iblk10 (c : Dev nD) (t : Fin cfg0.N) : (iblk m c 10 t : Vec F S512x512 .bf16) = V m c main_v12 := by
  resident_block win0_10, main_v12, t
theorem iblk11 (c : Dev nD) (t : Fin cfg0.N) : (iblk m c 11 t : Vec F S1x512 .f32) = V m c main_v5 := by
  resident_block win0_11, main_v5, t
theorem iblk12 (c : Dev nD) (t : Fin cfg0.N) : (iblk m c 12 t : Vec F S512x1 .bf16) = V m c main_v13 := by
  resident_block win0_12, main_v13, t
theorem iblk13 (c : Dev nD) (t : Fin cfg0.N) : (iblk m c 13 t : Vec F S512x512 .bf16) = V m c main_v14 := by
  resident_block win0_13, main_v14, t
theorem iblk14 (c : Dev nD) (t : Fin cfg0.N) : (iblk m c 14 t : Vec F S1x512 .f32) = V m c main_v6 := by
  resident_block win0_14, main_v6, t
theorem iblk15 (c : Dev nD) (t : Fin cfg0.N) : (iblk m c 15 t : Vec F S512x512 .bf16) = V m c main_v15 := by
  resident_block win0_15, main_v15, t
theorem iblk16 (c : Dev nD) (t : Fin cfg0.N) : (iblk m c 16 t : Vec F S1x512 .f32) = V m c main_v7 := by
  resident_block win0_16, main_v7, t
theorem iblk17 (c : Dev nD) (t : Fin cfg0.N) : (iblk m c 17 t : Vec F S512x1 .bf16) = V m c main_v16 := by
  resident_block win0_17, main_v16, t

/-- The moving windows' block index at point t is (t, 0): the input's, the label's, and the two outputs'. -/
theorem idx_moving : ∀ t : Fin cfg0.N, (win0_0.index t 0 = t.val ∧ win0_0.index t 1 = 0)
    ∧ (win0_1.index t 0 = t.val ∧ win0_1.index t 1 = 0)
    ∧ (win0_18.index t 0 = t.val ∧ win0_18.index t 1 = 0)
    ∧ (win0_19.index t 0 = t.val ∧ win0_19.index t 1 = 0) :=
  (by decide +kernel : ∀ t : Fin grid0.N, (win0_0.index t 0 = t.val ∧ win0_0.index t 1 = 0)
    ∧ (win0_1.index t 0 = t.val ∧ win0_1.index t 1 = 0)
    ∧ (win0_18.index t 0 = t.val ∧ win0_18.index t 1 = 0)
    ∧ (win0_19.index t 0 = t.val ∧ win0_19.index t 1 = 0))

/-- Row p of the input's block at point t is row 1024·t + p of the input. -/
theorem iblk0 (c : Dev nD) (t : Fin cfg0.N) (p : Fin 1024) (k : Fin 512) (n : Fin 65536) (hn : n.val = 1024 * t.val + p.val) :
    (iblk m c 0 t : Vec F S1024x512 .f32) (ix2 p k) = V m c main_arg0 (ix2 n k) := by
  unfold iblk
  rw [View.read_apply]
  refine congrArg (V m c main_arg0) (funext fun a => Fin.ext ?_)
  match a with
  | ⟨0, _⟩ => show win0_0.index t 0 * 1024 + 1 * p.val = n.val; rw [(idx_moving t).1.1, hn]; omega
  | ⟨1, _⟩ => show win0_0.index t 1 * 512 + 1 * k.val = k.val; rw [(idx_moving t).1.2]; omega

/-- Row p of the label's block at point t is row 1024·t + p of the label column. -/
theorem iblk1 (c : Dev nD) (t : Fin cfg0.N) (p : Fin 1024) (n : Fin 65536) (hn : n.val = 1024 * t.val + p.val) :
    (iblk m c 1 t : Vec F S1024x1 .i32) (ix2 p (0 : Fin 1)) = V m c main_v0 (ix2 n (0 : Fin 1)) := by
  unfold iblk
  rw [View.read_apply]
  refine congrArg (V m c main_v0) (funext fun a => Fin.ext ?_)
  match a with
  | ⟨0, _⟩ => show win0_1.index t 0 * 1024 + 1 * p.val = n.val; rw [(idx_moving t).2.1.1, hn]; omega
  | ⟨1, _⟩ => show win0_1.index t 1 * 1 + 1 * 0 = 0; rw [(idx_moving t).2.1.2]

end Cert.KernelIdeal.Read

end
-- ==== Proof.KernelArrays.lean ====
/-
  The kernel's two output arrays after the region, as functions of the arrays the region finds.

  Point t writes back block t of each output, rows 1024·t … 1024·t + 1023, and what it writes there is, entry by entry,
  the row's shared representation (second output) and the label's choice between the two heads (first output). The 64
  blocks tile each output, so each output array ends as one function of the input, the label column and the weights.
-/
import proofs.«113489_j48747878810213_1_alg».proof.Proof.KernelBlock
import proofs.«113489_j48747878810213_1_alg».proof.Proof.KernelRead

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Read Cert.KernelIdeal.Block

variable (m : (ℓ : Loc nD τ sig) → Buf (Elt Ideal) ℓ)

theorem hz : (![0, 0] : Fin 2 → Nat) = fun _ => 0 := funext fun a => by fin_cases a <;> rfl

/-- The shared representation of every row, over the arrays as the region finds them (the biases as one-row arrays). -/
def outArr (X : S65536x512.Idx → EReal) (W0 : S512x1024.Idx → EReal) (b0 : S1x1024.Idx → EReal)
    (W1 : S1024x1024.Idx → EReal) (b1 : S1x1024.Idx → EReal) (W2 : S1024x512.Idx → EReal) (b2 : S1x512.Idx → EReal) :
    S65536x512.Idx → EReal := fun i =>
  Cert.Mlp.shared (fun k => X (ix2 (⟨(i 0).val, (i 0).isLt⟩ : Fin 65536) k)) W0 (fun j => b0 (ix2 (0 : Fin 1) j))
    W1 (fun j => b1 (ix2 (0 : Fin 1) j)) W2 (fun j => b2 (ix2 (0 : Fin 1) j)) (⟨(i 1).val, (i 1).isLt⟩ : Fin 512)

/-- One row's result, from the row, its label and the arrays as the region finds them (the biases as one-row arrays). -/
def yRow (x : Fin 512 → EReal) (lab : BitVec 32) (W0 : S512x1024.Idx → EReal) (b0 : S1x1024.Idx → EReal)
    (W1 : S1024x1024.Idx → EReal) (b1 : S1x1024.Idx → EReal) (W2 : S1024x512.Idx → EReal) (b2 : S1x512.Idx → EReal)
    (A0 : S512x512.Idx → EReal) (a0 : S1x512.Idx → EReal) (A1 : S512x512.Idx → EReal) (a1 : S1x512.Idx → EReal)
    (A2 : S512x1.Idx → EReal)
    (C0 : S512x512.Idx → EReal) (c0 : S1x512.Idx → EReal) (C1 : S512x512.Idx → EReal) (c1 : S1x512.Idx → EReal)
    (C2 : S512x1.Idx → EReal) : EReal :=
  Cert.Mlp.pick lab
    (Cert.Mlp.head (Cert.Mlp.shared x W0 (fun j => b0 (ix2 (0 : Fin 1) j)) W1 (fun j => b1 (ix2 (0 : Fin 1) j)) W2 (fun j => b2 (ix2 (0 : Fin 1) j)))
      A0 (fun j => a0 (ix2 (0 : Fin 1) j)) A1 (fun j => a1 (ix2 (0 : Fin 1) j)) A2)
    (Cert.Mlp.head (Cert.Mlp.shared x W0 (fun j => b0 (ix2 (0 : Fin 1) j)) W1 (fun j => b1 (ix2 (0 : Fin 1) j)) W2 (fun j => b2 (ix2 (0 : Fin 1) j)))
      C0 (fun j => c0 (ix2 (0 : Fin 1) j)) C1 (fun j => c1 (ix2 (0 : Fin 1) j)) C2)

/-- The result column, over the arrays as the region finds them (the label as a column): row n's result. -/
def yArr (X : S65536x512.Idx → EReal) (T : S65536x1.Idx → BitVec 32) (W0 : S512x1024.Idx → EReal) (b0 : S1x1024.Idx → EReal)
    (W1 : S1024x1024.Idx → EReal) (b1 : S1x1024.Idx → EReal) (W2 : S1024x512.Idx → EReal) (b2 : S1x512.Idx → EReal)
    (A0 : S512x512.Idx → EReal) (a0 : S1x512.Idx → EReal) (A1 : S512x512.Idx → EReal) (a1 : S1x512.Idx → EReal)
    (A2 : S512x1.Idx → EReal)
    (C0 : S512x512.Idx → EReal) (c0 : S1x512.Idx → EReal) (C1 : S512x512.Idx → EReal) (c1 : S1x512.Idx → EReal)
    (C2 : S512x1.Idx → EReal) : S65536x1.Idx → EReal := fun i =>
  yRow (fun k => X (ix2 (⟨(i 0).val, (i 0).isLt⟩ : Fin 65536) k)) (T (ix2 (⟨(i 0).val, (i 0).isLt⟩ : Fin 65536) (0 : Fin 1)))
    W0 b0 W1 b1 W2 b2 A0 a0 A1 a1 A2 C0 c0 C1 c1 C2

/-- The shared representations' array at (n, q). -/
theorem outArr_apply (X : S65536x512.Idx → EReal) (W0 : S512x1024.Idx → EReal) (b0 : S1x1024.Idx → EReal)
    (W1 : S1024x1024.Idx → EReal) (b1 : S1x1024.Idx → EReal) (W2 : S1024x512.Idx → EReal) (b2 : S1x512.Idx → EReal)
    (n : Fin 65536) (q : Fin 512) :
    outArr X W0 b0 W1 b1 W2 b2 (ix2 n q)
      = Cert.Mlp.shared (fun k => X (ix2 n k)) W0 (fun j => b0 (ix2 (0 : Fin 1) j)) W1 (fun j => b1 (ix2 (0 : Fin 1) j)) W2
          (fun j => b2 (ix2 (0 : Fin 1) j)) q := rfl

/-- Entry (p, q) of block t of an array over the 65536 rows is the array's entry (1024·t + p, q). -/
theorem read_blk19 (Y : S65536x512.Idx → EReal) (t : Fin cfg0.N) (p : Fin 1024) (q : Fin 512) (n : Fin 65536)
    (hn : n.val = 1024 * t.val + p.val) :
    ((cfg0.win 19).blk t).view.read (Elt Ideal) Y (ix2 p q) = Y (ix2 n q) := by
  rw [View.read_apply]
  refine congrArg Y (funext fun a => Fin.ext ?_)
  match a with
  | ⟨0, _⟩ => show win0_19.index t 0 * 1024 + 1 * p.val = n.val; rw [(idx_moving t).2.2.2.1, hn]; omega
  | ⟨1, _⟩ => show win0_19.index t 1 * 512 + 1 * q.val = q.val; rw [(idx_moving t).2.2.2.2]; omega

/-- What point t writes back to the second output is block t of the shared representations. -/
theorem flushed19_eq (c : Dev nD) (t : Fin cfg0.N) :
    (dats m 0 c).flushed 19 t = ((cfg0.win 19).blk t).view.read (Elt Ideal)
      (outArr (V m c main_arg0) (V m c main_v8) (V m c main_v1) (V m c main_v9) (V m c main_v2) (V m c main_v10) (V m c main_v3)) := by
  show (cfg0.win 19).cut (grid0.coords t) ((dats m 0 c).after 19 t) = _
  rw [after0_19]
  unfold out0_19
  rw [View.canon_unit_zero hz]
  simp only [View.ld_unit_zero (S := S1024x512) hz, View.ld_unit_zero (S := S512x1024) hz, View.ld_unit_zero (S := S1x1024) hz,
    View.ld_unit_zero (S := S1024x1024) hz, View.ld_unit_zero (S := S1x512) hz]
  rw [iblk2, iblk3, iblk4, iblk5, iblk6, iblk7]
  funext j
  obtain ⟨p, q, rfl⟩ : ∃ (p : Fin 1024) (q : Fin 512), j = ix2 p q := ⟨j 0, j 1, eq_ix2 j⟩
  have ht : t.val < 64 := N_0 ▸ t.isLt
  have hp : p.val < 1024 := p.isLt
  refine Eq.trans ?_ (read_blk19 _ t p q ⟨1024 * t.val + p.val, by omega⟩ rfl).symm
  refine Eq.trans ?_ (outArr_apply _ _ _ _ _ _ _ ⟨1024 * t.val + p.val, by omega⟩ q).symm
  refine (pay2_apply (iblk m c 0 t) (V m c main_v8) (V m c main_v1) (V m c main_v9) (V m c main_v2) (V m c main_v10)
    (V m c main_v3) p q).trans ?_
  exact congrArg (fun x => Cert.Mlp.shared x (V m c main_v8) (fun j => V m c main_v1 (ix2 (0 : Fin 1) j)) (V m c main_v9)
      (fun j => V m c main_v2 (ix2 (0 : Fin 1) j)) (V m c main_v10) (fun j => V m c main_v3 (ix2 (0 : Fin 1) j)) q)
    (funext fun k => iblk0 m c t p k ⟨1024 * t.val + p.val, by omega⟩ rfl)

/-- An entry of the second output is in point t's block iff its row is among the block's 1024 rows. -/
theorem mem_blk19 (t : Fin cfg0.N) (i : S65536x512.Idx) :
    i ∈ ((cfg0.win 19).blk t).view.set ↔ ∀ a : Fin 2, win0_19.index t a * S1024x512.size a ≤ (i a).val
      ∧ (i a).val < win0_19.index t a * S1024x512.size a + S1024x512.size a := by
  show i ∈ ((View.whole main_v17_1).slice (win0_19.rect t)).set ↔ _
  rw [View.set_slice_whole, Rect.mem_set_unit]
  exact Iff.rfl

/-- Row n lies in the block of point n / 1024: the blocks tile the second output. -/
theorem cover19 (i : S65536x512.Idx) : ∃ t : Fin cfg0.N, (cfg0.win 19).flush t = true ∧ i ∈ ((cfg0.win 19).blk t).view.set := by
  have h0 : (i 0).val < 65536 := (i 0).isLt
  have h1 : (i 1).val < 512 := (i 1).isLt
  refine ⟨⟨(i 0).val / 1024, by show (i 0).val / 1024 < grid0.N; rw [N_0]; omega⟩, flush0_19 _, ?_⟩
  rw [mem_blk19]
  intro a
  match a with
  | ⟨0, _⟩ =>
    show win0_19.index _ 0 * 1024 ≤ (i 0).val ∧ (i 0).val < win0_19.index _ 0 * 1024 + 1024
    rw [(idx_moving _).2.2.2.1]
    show (i 0).val / 1024 * 1024 ≤ (i 0).val ∧ (i 0).val < (i 0).val / 1024 * 1024 + 1024
    omega
  | ⟨1, _⟩ =>
    show win0_19.index _ 1 * 512 ≤ (i 1).val ∧ (i 1).val < win0_19.index _ 1 * 512 + 512
    rw [(idx_moving _).2.2.2.2]
    omega

/-- The second output after the region: the shared representation of every row. -/
theorem final19 (c : Dev nD) : (dats m 0 c).arrAt 19 cfg0.N
    = outArr (V m c main_arg0) (V m c main_v8) (V m c main_v1) (V m c main_v9) (V m c main_v2) (V m c main_v10) (V m c main_v3) :=
  (dats m 0 c).arrAt_eq_of_cover 19 _ (fun t _ => flushed19_eq m c t) cover19

/-- The result column at (n, 0). -/
theorem yArr_apply (X : S65536x512.Idx → EReal) (T : S65536x1.Idx → BitVec 32) (W0 : S512x1024.Idx → EReal) (b0 : S1x1024.Idx → EReal)
    (W1 : S1024x1024.Idx → EReal) (b1 : S1x1024.Idx → EReal) (W2 : S1024x512.Idx → EReal) (b2 : S1x512.Idx → EReal)
    (A0 : S512x512.Idx → EReal) (a0 : S1x512.Idx → EReal) (A1 : S512x512.Idx → EReal) (a1 : S1x512.Idx → EReal)
    (A2 : S512x1.Idx → EReal)
    (C0 : S512x512.Idx → EReal) (c0 : S1x512.Idx → EReal) (C1 : S512x512.Idx → EReal) (c1 : S1x512.Idx → EReal)
    (C2 : S512x1.Idx → EReal) (n : Fin 65536) :
    yArr X T W0 b0 W1 b1 W2 b2 A0 a0 A1 a1 A2 C0 c0 C1 c1 C2 (ix2 n (0 : Fin 1))
      = yRow (fun k => X (ix2 n k)) (T (ix2 n (0 : Fin 1))) W0 b0 W1 b1 W2 b2 A0 a0 A1 a1 A2 C0 c0 C1 c1 C2 := rfl

/-- The result's payload at (p, 0), as one row's result. -/
theorem pay1_row (x0 : FVec Ideal S1024x512 .f32) (x1 : Vec Ideal S1024x1 .i32) (x2 : FVec Ideal S512x1024 .bf16)
    (x3 : FVec Ideal S1x1024 .f32) (x4 : FVec Ideal S1024x1024 .bf16) (x5 : FVec Ideal S1x1024 .f32)
    (x6 : FVec Ideal S1024x512 .bf16) (x7 : FVec Ideal S1x512 .f32) (x8 : FVec Ideal S512x512 .bf16)
    (x9 : FVec Ideal S1x512 .f32) (x10 : FVec Ideal S512x512 .bf16) (x11 : FVec Ideal S1x512 .f32)
    (x12 : FVec Ideal S512x1 .bf16) (x13 : FVec Ideal S512x512 .bf16) (x14 : FVec Ideal S1x512 .f32)
    (x15 : FVec Ideal S512x512 .bf16) (x16 : FVec Ideal S1x512 .f32) (x17 : FVec Ideal S512x1 .bf16) (p : Fin 1024) :
    k0_pay1 (F := Ideal) (k0_pay5 (k0_pay4 x0 x2 x3 x4 x5 x6 x7 x8) x9 x10 x11 x12)
        (k0_pay6 (k0_pay3 x0 x2 x3 x4 x5 x6 x7) x13 x14 x15 x16) x17 x1 (ix2 p (0 : Fin 1))
      = yRow (fun k => x0 (ix2 p k)) (x1 (ix2 p (0 : Fin 1))) x2 x3 x4 x5 x6 x7 x8 x9 x10 x11 x12 x13 x14 x15 x16 x17 :=
  pay1_apply x0 x1 x2 x3 x4 x5 x6 x7 x8 x9 x10 x11 x12 x13 x14 x15 x16 x17 p

/-- Row p of block t of a column over the 65536 rows is the column's row 1024·t + p. -/
theorem read_blk18 (Y : S65536x1.Idx → EReal) (t : Fin cfg0.N) (p : Fin 1024) (n : Fin 65536) (hn : n.val = 1024 * t.val + p.val) :
    ((cfg0.win 18).blk t).view.read (Elt Ideal) Y (ix2 p (0 : Fin 1)) = Y (ix2 n (0 : Fin 1)) := by
  rw [View.read_apply]
  refine congrArg Y (funext fun a => Fin.ext ?_)
  match a with
  | ⟨0, _⟩ => show win0_18.index t 0 * 1024 + 1 * p.val = n.val; rw [(idx_moving t).2.2.1.1, hn]; omega
  | ⟨1, _⟩ => show win0_18.index t 1 * 1 + 1 * 0 = 0; rw [(idx_moving t).2.2.1.2]

/-- One row's result depends on the row, the label and the arrays only through their values. -/
theorem yRow_congr {x x' : Fin 512 → EReal} (hx : x = x') {lab lab' : BitVec 32} (hl : lab = lab')
    {W0 W0' : S512x1024.Idx → EReal} (h2 : W0 = W0') {b0 b0' : S1x1024.Idx → EReal} (h3 : b0 = b0')
    {W1 W1' : S1024x1024.Idx → EReal} (h4 : W1 = W1') {b1 b1' : S1x1024.Idx → EReal} (h5 : b1 = b1')
    {W2 W2' : S1024x512.Idx → EReal} (h6 : W2 = W2') {b2 b2' : S1x512.Idx → EReal} (h7 : b2 = b2')
    {A0 A0' : S512x512.Idx → EReal} (h8 : A0 = A0') {a0 a0' : S1x512.Idx → EReal} (h9 : a0 = a0')
    {A1 A1' : S512x512.Idx → EReal} (h10 : A1 = A1') {a1 a1' : S1x512.Idx → EReal} (h11 : a1 = a1')
    {A2 A2' : S512x1.Idx → EReal} (h12 : A2 = A2')
    {C0 C0' : S512x512.Idx → EReal} (h13 : C0 = C0') {c0 c0' : S1x512.Idx → EReal} (h14 : c0 = c0')
    {C1 C1' : S512x512.Idx → EReal} (h15 : C1 = C1') {c1 c1' : S1x512.Idx → EReal} (h16 : c1 = c1')
    {C2 C2' : S512x1.Idx → EReal} (h17 : C2 = C2') :
    yRow x lab W0 b0 W1 b1 W2 b2 A0 a0 A1 a1 A2 C0 c0 C1 c1 C2
      = yRow x' lab' W0' b0' W1' b1' W2' b2' A0' a0' A1' a1' A2' C0' c0' C1' c1' C2' := by
  subst hx hl h2 h3 h4 h5 h6 h7 h8 h9 h10 h11 h12 h13 h14 h15 h16 h17
  rfl

/-- What the body leaves in the first output's buffer at point t: the result's payload of the point's blocks. -/
theorem after18_eq (c : Dev nD) (t : Fin cfg0.N) : (dats m 0 c).after 18 t
    = k0_pay1 (F := Ideal)
        (k0_pay5 (k0_pay4 (iblk m c 0 t) (iblk m c 2 t) (iblk m c 3 t) (iblk m c 4 t) (iblk m c 5 t) (iblk m c 6 t) (iblk m c 7 t) (iblk m c 8 t))
          (iblk m c 9 t) (iblk m c 10 t) (iblk m c 11 t) (iblk m c 12 t))
        (k0_pay6 (k0_pay3 (iblk m c 0 t) (iblk m c 2 t) (iblk m c 3 t) (iblk m c 4 t) (iblk m c 5 t) (iblk m c 6 t) (iblk m c 7 t))
          (iblk m c 13 t) (iblk m c 14 t) (iblk m c 15 t) (iblk m c 16 t))
        (iblk m c 17 t) (iblk m c 1 t) := by
  rw [after0_18]
  unfold out0_18
  rw [View.canon_unit_zero hz]
  simp only [View.ld_unit_zero (S := S1024x512) hz, View.ld_unit_zero (S := S512x1024) hz, View.ld_unit_zero (S := S1x1024) hz,
    View.ld_unit_zero (S := S1024x1024) hz, View.ld_unit_zero (S := S1x512) hz, View.ld_unit_zero (S := S512x512) hz,
    View.ld_unit_zero (S := S512x1) hz, View.ld_unit_zero (S := S1024x1) hz]

/-- What point t writes back to the first output is block t of the result column. -/
theorem flushed18_eq (c : Dev nD) (t : Fin cfg0.N) :
    (dats m 0 c).flushed 18 t = ((cfg0.win 18).blk t).view.read (Elt Ideal)
      (yArr (V m c main_arg0) (V m c main_v0) (V m c main_v8) (V m c main_v1) (V m c main_v9) (V m c main_v2) (V m c main_v10) (V m c main_v3)
        (V m c main_v11) (V m c main_v4) (V m c main_v12) (V m c main_v5) (V m c main_v13)
        (V m c main_v14) (V m c main_v6) (V m c main_v15) (V m c main_v7) (V m c main_v16)) := by
  show (cfg0.win 18).cut (grid0.coords t) ((dats m 0 c).after 18 t) = _
  rw [after18_eq]
  funext j
  have hj1 : (j 1).val < 1 := (j 1).isLt
  obtain ⟨p, rfl⟩ : ∃ (p : Fin 1024), j = ix2 p (0 : Fin 1) :=
    ⟨j 0, (eq_ix2 j).trans (congrArg (ix2 (j 0)) (Fin.ext (by show (j 1).val = 0; omega)))⟩
  have ht : t.val < 64 := N_0 ▸ t.isLt
  have hp : p.val < 1024 := p.isLt
  refine Eq.trans ?_ (read_blk18 _ t p ⟨1024 * t.val + p.val, by omega⟩ rfl).symm
  refine Eq.trans ?_ (yArr_apply _ _ _ _ _ _ _ _ _ _ _ _ _ _ _ _ _ _ ⟨1024 * t.val + p.val, by omega⟩).symm
  refine (pay1_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) p).trans ?_
  exact yRow_congr (funext fun k => iblk0 m c t p k ⟨1024 * t.val + p.val, by omega⟩ rfl)
    (iblk1 m c t p ⟨1024 * t.val + p.val, by omega⟩ rfl)
    (iblk2 m c t) (iblk3 m c t) (iblk4 m c t) (iblk5 m c t) (iblk6 m c t) (iblk7 m c t) (iblk8 m c t) (iblk9 m c t)
    (iblk10 m c t) (iblk11 m c t) (iblk12 m c t) (iblk13 m c t) (iblk14 m c t) (iblk15 m c t) (iblk16 m c t) (iblk17 m c t)

/-- An entry of the first output is in point t's block iff its row is among the block's 1024 rows. -/
theorem mem_blk18 (t : Fin cfg0.N) (i : S65536x1.Idx) :
    i ∈ ((cfg0.win 18).blk t).view.set ↔ ∀ a : Fin 2, win0_18.index t a * S1024x1.size a ≤ (i a).val
      ∧ (i a).val < win0_18.index t a * S1024x1.size a + S1024x1.size a := by
  show i ∈ ((View.whole main_v17_0).slice (win0_18.rect t)).set ↔ _
  rw [View.set_slice_whole, Rect.mem_set_unit]
  exact Iff.rfl

/-- Row n lies in the block of point n / 1024: the blocks tile the first output. -/
theorem cover18 (i : S65536x1.Idx) : ∃ t : Fin cfg0.N, (cfg0.win 18).flush t = true ∧ i ∈ ((cfg0.win 18).blk t).view.set := by
  have h0 : (i 0).val < 65536 := (i 0).isLt
  have h1 : (i 1).val < 1 := (i 1).isLt
  refine ⟨⟨(i 0).val / 1024, by show (i 0).val / 1024 < grid0.N; rw [N_0]; omega⟩, flush0_18 _, ?_⟩
  rw [mem_blk18]
  intro a
  match a with
  | ⟨0, _⟩ =>
    show win0_18.index _ 0 * 1024 ≤ (i 0).val ∧ (i 0).val < win0_18.index _ 0 * 1024 + 1024
    rw [(idx_moving _).2.2.1.1]
    show (i 0).val / 1024 * 1024 ≤ (i 0).val ∧ (i 0).val < (i 0).val / 1024 * 1024 + 1024
    omega
  | ⟨1, _⟩ =>
    show win0_18.index _ 1 * 1 ≤ (i 1).val ∧ (i 1).val < win0_18.index _ 1 * 1 + 1
    rw [(idx_moving _).2.2.1.2]
    omega

/-- The first output after the region: the result column. -/
theorem final18 (c : Dev nD) : (dats m 0 c).arrAt 18 cfg0.N
    = yArr (V m c main_arg0) (V m c main_v0) (V m c main_v8) (V m c main_v1) (V m c main_v9) (V m c main_v2) (V m c main_v10) (V m c main_v3)
        (V m c main_v11) (V m c main_v4) (V m c main_v12) (V m c main_v5) (V m c main_v13)
        (V m c main_v14) (V m c main_v6) (V m c main_v15) (V m c main_v7) (V m c main_v16) :=
  (dats m 0 c).arrAt_eq_of_cover 18 _ (fun t _ => flushed18_eq m c t) cover18

end Cert.KernelIdeal.Arrays

end
-- ==== Proof.KernelHost.lean ====
/-
  The arrays the region finds, in terms of the program's arguments.

  Before the region the program reshapes the label vector to a column and each bias vector to a one-row array, and
  converts each weight matrix to the narrow float format; on the extended reals the conversion is the identity, so
  each weight array the region finds is the argument itself, and each reshaped array reads the argument at the one
  coordinate that is not the unit axis.
-/
import proofs.«113489_j48747878810213_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ)

/-- A column [a, 1] read at (n, 0) after a reshape from the vector [a]. -/
theorem shapeCast_a_a1_apply {α : Type} {a : ℕ} (x : (⟨1, ![a]⟩ : Shape).Idx → α) (h : (⟨1, ![a]⟩ : Shape).ShapeCasts ⟨2, ![a, 1]⟩)
    (n : Fin a) : shapeCast ⟨2, ![a, 1]⟩ x h (ix2 n (0 : Fin 1)) = x (ix1 n) :=
  shapeCast_apply x h _ _ (by
    rw [Shape.rowMajor_val_two, Shape.rowMajor_val_one]
    show n.val = n.val * 1 + 0
    omega)

/-- A vector [a] read at n after a reshape from the column [a, 1]. -/
theorem shapeCast_a1_a_apply {α : Type} {a : ℕ} (x : (⟨2, ![a, 1]⟩ : Shape).Idx → α) (h : (⟨2, ![a, 1]⟩ : Shape).ShapeCasts ⟨1, ![a]⟩)
    (n : Fin a) : shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-! ## The weights: the conversion is the identity -/

theorem V_v8 (c : Dev nD) : (V m c main_v8 : S512x1024.Idx → EReal) = m ((c : Thread nD τ).loc main_arg2) := by
  show StableHlo.after hostOps0 (fun b => m (c, b)) (Proc.devRef .tc main_v8) = _
  after_results
  rfl
theorem V_v9 (c : Dev nD) : (V m c main_v9 : S1024x1024.Idx → EReal) = m ((c : Thread nD τ).loc main_arg4) := by
  show StableHlo.after hostOps0 (fun b => m (c, b)) (Proc.devRef .tc main_v9) = _
  after_results
  rfl
theorem V_v10 (c : Dev nD) : (V m c main_v10 : S1024x512.Idx → EReal) = m ((c : Thread nD τ).loc main_arg6) := by
  show StableHlo.after hostOps0 (fun b => m (c, b)) (Proc.devRef .tc main_v10) = _
  after_results
  rfl
theorem V_v11 (c : Dev nD) : (V m c main_v11 : S512x512.Idx → EReal) = m ((c : Thread nD τ).loc main_arg8) := by
  show StableHlo.after hostOps0 (fun b => m (c, b)) (Proc.devRef .tc main_v11) = _
  after_results
  rfl
theorem V_v12 (c : Dev nD) : (V m c main_v12 : S512x512.Idx → EReal) = m ((c : Thread nD τ).loc main_arg10) := by
  show StableHlo.after hostOps0 (fun b => m (c, b)) (Proc.devRef .tc main_v12) = _
  after_results
  rfl
theorem V_v13 (c : Dev nD) : (V m c main_v13 : S512x1.Idx → EReal) = m ((c : Thread nD τ).loc main_arg12) := by
  show StableHlo.after hostOps0 (fun b => m (c, b)) (Proc.devRef .tc main_v13) = _
  after_results
  rfl
theorem V_v14 (c : Dev nD) : (V m c main_v14 : S512x512.Idx → EReal) = m ((c : Thread nD τ).loc main_arg13) := by
  show StableHlo.after hostOps0 (fun b => m (c, b)) (Proc.devRef .tc main_v14) = _
  after_results
  rfl
theorem V_v15 (c : Dev nD) : (V m c main_v15 : S512x512.Idx → EReal) = m ((c : Thread nD τ).loc main_arg15) := by
  show StableHlo.after hostOps0 (fun b => m (c, b)) (Proc.devRef .tc main_v15) = _
  after_results
  rfl
theorem V_v16 (c : Dev nD) : (V m c main_v16 : S512x1.Idx → EReal) = m ((c : Thread nD τ).loc main_arg17) := by
  show StableHlo.after hostOps0 (fun b => m (c, b)) (Proc.devRef .tc main_v16) = _
  after_results
  rfl

/-! ## The biases: one-row arrays of the bias vectors -/

theorem V_v1 (c : Dev nD) (j : Fin 1024) : (V m c main_v1 : S1x1024.Idx → EReal) (ix2 (0 : Fin 1) j)
    = (m ((c : Thread nD τ).loc main_arg3) : S1024.Idx → EReal) (ix1 j) := by
  have e : (V m c main_v1 : S1x1024.Idx → EReal) = shapeCast S1x1024 (m ((c : Thread nD τ).loc main_arg3) : S1024.Idx → EReal) shapeCasts_S1024_S1x1024 := by
    show StableHlo.after hostOps0 (fun b => m (c, b)) (Proc.devRef .tc main_v1) = _
    after_results
    rfl
  rw [e]
  exact shapeCast_a_1a_apply _ _ 0 j
theorem V_v2 (c : Dev nD) (j : Fin 1024) : (V m c main_v2 : S1x1024.Idx → EReal) (ix2 (0 : Fin 1) j)
    = (m ((c : Thread nD τ).loc main_arg5) : S1024.Idx → EReal) (ix1 j) := by
  have e : (V m c main_v2 : S1x1024.Idx → EReal) = shapeCast S1x1024 (m ((c : Thread nD τ).loc main_arg5) : S1024.Idx → EReal) shapeCasts_S1024_S1x1024 := by
    show StableHlo.after hostOps0 (fun b => m (c, b)) (Proc.devRef .tc main_v2) = _
    after_results
    rfl
  rw [e]
  exact shapeCast_a_1a_apply _ _ 0 j
theorem V_v3 (c : Dev nD) (j : Fin 512) : (V m c main_v3 : S1x512.Idx → EReal) (ix2 (0 : Fin 1) j)
    = (m ((c : Thread nD τ).loc main_arg7) : S512.Idx → EReal) (ix1 j) := by
  have e : (V m c main_v3 : S1x512.Idx → EReal) = shapeCast S1x512 (m ((c : Thread nD τ).loc main_arg7) : S512.Idx → EReal) shapeCasts_S512_S1x512 := by
    show StableHlo.after hostOps0 (fun b => m (c, b)) (Proc.devRef .tc main_v3) = _
    after_results
    rfl
  rw [e]
  exact shapeCast_a_1a_apply _ _ 0 j
theorem V_v4 (c : Dev nD) (j : Fin 512) : (V m c main_v4 : S1x512.Idx → EReal) (ix2 (0 : Fin 1) j)
    = (m ((c : Thread nD τ).loc main_arg9) : S512.Idx → EReal) (ix1 j) := by
  have e : (V m c main_v4 : S1x512.Idx → EReal) = shapeCast S1x512 (m ((c : Thread nD τ).loc main_arg9) : S512.Idx → EReal) shapeCasts_S512_S1x512 := by
    show StableHlo.after hostOps0 (fun b => m (c, b)) (Proc.devRef .tc main_v4) = _
    after_results
    rfl
  rw [e]
  exact shapeCast_a_1a_apply _ _ 0 j
theorem V_v5 (c : Dev nD) (j : Fin 512) : (V m c main_v5 : S1x512.Idx → EReal) (ix2 (0 : Fin 1) j)
    = (m ((c : Thread nD τ).loc main_arg11) : S512.Idx → EReal) (ix1 j) := by
  have e : (V m c main_v5 : S1x512.Idx → EReal) = shapeCast S1x512 (m ((c : Thread nD τ).loc main_arg11) : S512.Idx → EReal) shapeCasts_S512_S1x512 := by
    show StableHlo.after hostOps0 (fun b => m (c, b)) (Proc.devRef .tc main_v5) = _
    after_results
    rfl
  rw [e]
  exact shapeCast_a_1a_apply _ _ 0 j
theorem V_v6 (c : Dev nD) (j : Fin 512) : (V m c main_v6 : S1x512.Idx → EReal) (ix2 (0 : Fin 1) j)
    = (m ((c : Thread nD τ).loc main_arg14) : S512.Idx → EReal) (ix1 j) := by
  have e : (V m c main_v6 : S1x512.Idx → EReal) = shapeCast S1x512 (m ((c : Thread nD τ).loc main_arg14) : S512.Idx → EReal) shapeCasts_S512_S1x512 := by
    show StableHlo.after hostOps0 (fun b => m (c, b)) (Proc.devRef .tc main_v6) = _
    after_results
    rfl
  rw [e]
  exact shapeCast_a_1a_apply _ _ 0 j
theorem V_v7 (c : Dev nD) (j : Fin 512) : (V m c main_v7 : S1x512.Idx → EReal) (ix2 (0 : Fin 1) j)
    = (m ((c : Thread nD τ).loc main_arg16) : S512.Idx → EReal) (ix1 j) := by
  have e : (V m c main_v7 : S1x512.Idx → EReal) = shapeCast S1x512 (m ((c : Thread nD τ).loc main_arg16) : S512.Idx → EReal) shapeCasts_S512_S1x512 := by
    show StableHlo.after hostOps0 (fun b => m (c, b)) (Proc.devRef .tc main_v7) = _
    after_results
    rfl
  rw [e]
  exact shapeCast_a_1a_apply _ _ 0 j

/-! ## The label: a column of the label vector -/

theorem V_v0 (c : Dev nD) (n : Fin 65536) :
    (V m c main_v0 : S65536x1.Idx → BitVec 32) (ix2 n (0 : Fin 1)) = (m ((c : Thread nD τ).loc main_arg1) : S65536.Idx → BitVec 32) (ix1 n) := by
  have e : (V m c main_v0 : S65536x1.Idx → BitVec 32) = shapeCast S65536x1 (m ((c : Thread nD τ).loc main_arg1) : S65536.Idx → BitVec 32) shapeCasts_S65536_S65536x1 := by
    show StableHlo.after hostOps0 (fun b => m (c, b)) (Proc.devRef .tc main_v0) = _
    after_results
    rfl
  rw [e]
  exact shapeCast_a_a1_apply _ _ n

end Cert.KernelIdeal.Host

end
-- ==== Proof.KernelRun.lean ====
/-
  The kernel program's run, with its two results named.

  After the region the program reshapes the result column to a vector. The two results are, entry by entry, the
  label's choice between the two heads and the shared representation, as functions of the program's arguments; the
  arguments end as they were launched.
-/
import proofs.«113489_j48747878810213_1_alg».proof.Proof.KernelArrays
import proofs.«113489_j48747878810213_1_alg».proof.Proof.KernelHost

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Arrays Cert.KernelIdeal.Host

/-! ## From the arrays the region finds to the arguments: the weights are the arguments, each bias row is its vector,
    the label column is the label vector -/

theorem outArr_eq_outOf {X X' : S65536x512.Idx → EReal} (hX : X = X')
    {W0 W0' : S512x1024.Idx → EReal} (hW0 : W0 = W0') {W1 W1' : S1024x1024.Idx → EReal} (hW1 : W1 = W1')
    {W2 W2' : S1024x512.Idx → EReal} (hW2 : W2 = W2')
    {b0r : S1x1024.Idx → EReal} {b0 : S1024.Idx → EReal} (h0 : ∀ j : Fin 1024, b0r (ix2 (0 : Fin 1) j) = b0 (ix1 j))
    {b1r : S1x1024.Idx → EReal} {b1 : S1024.Idx → EReal} (h1 : ∀ j : Fin 1024, b1r (ix2 (0 : Fin 1) j) = b1 (ix1 j))
    {b2r : S1x512.Idx → EReal} {b2 : S512.Idx → EReal} (h2 : ∀ j : Fin 512, b2r (ix2 (0 : Fin 1) j) = b2 (ix1 j)) :
    outArr X W0 b0r W1 b1r W2 b2r = Cert.Mlp.outOf X' W0' b0 W1' b1 W2' b2 := by
  subst hX hW0 hW1 hW2
  have e0 : (fun j => b0r (ix2 (0 : Fin 1) j)) = fun j => b0 (ix1 j) := funext h0
  have e1 : (fun j => b1r (ix2 (0 : Fin 1) j)) = fun j => b1 (ix1 j) := funext h1
  have e2 : (fun j => b2r (ix2 (0 : Fin 1) j)) = fun j => b2 (ix1 j) := funext h2
  funext i
  unfold outArr Cert.Mlp.outOf
  rw [e0, e1, e2]

theorem yArr_eq_yOf {X X' : S65536x512.Idx → EReal} (hX : X = X')
    {T : S65536x1.Idx → BitVec 32} {T' : S65536.Idx → BitVec 32} (hT : ∀ n : Fin 65536, T (ix2 n (0 : Fin 1)) = T' (ix1 n))
    {W0 W0' : S512x1024.Idx → EReal} (hW0 : W0 = W0') {W1 W1' : S1024x1024.Idx → EReal} (hW1 : W1 = W1')
    {W2 W2' : S1024x512.Idx → EReal} (hW2 : W2 = W2')
    {A0 A0' : S512x512.Idx → EReal} (hA0 : A0 = A0') {A1 A1' : S512x512.Idx → EReal} (hA1 : A1 = A1')
    {A2 A2' : S512x1.Idx → EReal} (hA2 : A2 = A2')
    {C0 C0' : S512x512.Idx → EReal} (hC0 : C0 = C0') {C1 C1' : S512x512.Idx → EReal} (hC1 : C1 = C1')
    {C2 C2' : S512x1.Idx → EReal} (hC2 : C2 = C2')
    {b0r : S1x1024.Idx → EReal} {b0 : S1024.Idx → EReal} (h0 : ∀ j : Fin 1024, b0r (ix2 (0 : Fin 1) j) = b0 (ix1 j))
    {b1r : S1x1024.Idx → EReal} {b1 : S1024.Idx → EReal} (h1 : ∀ j : Fin 1024, b1r (ix2 (0 : Fin 1) j) = b1 (ix1 j))
    {b2r : S1x512.Idx → EReal} {b2 : S512.Idx → EReal} (h2 : ∀ j : Fin 512, b2r (ix2 (0 : Fin 1) j) = b2 (ix1 j))
    {a0r : S1x512.Idx → EReal} {a0 : S512.Idx → EReal} (ha0 : ∀ j : Fin 512, a0r (ix2 (0 : Fin 1) j) = a0 (ix1 j))
    {a1r : S1x512.Idx → EReal} {a1 : S512.Idx → EReal} (ha1 : ∀ j : Fin 512, a1r (ix2 (0 : Fin 1) j) = a1 (ix1 j))
    {c0r : S1x512.Idx → EReal} {c0 : S512.Idx → EReal} (hc0 : ∀ j : Fin 512, c0r (ix2 (0 : Fin 1) j) = c0 (ix1 j))
    {c1r : S1x512.Idx → EReal} {c1 : S512.Idx → EReal} (hc1 : ∀ j : Fin 512, c1r (ix2 (0 : Fin 1) j) = c1 (ix1 j))
    (n : Fin 65536) :
    yArr X T W0 b0r W1 b1r W2 b2r A0 a0r A1 a1r A2 C0 c0r C1 c1r C2 (ix2 n (0 : Fin 1))
      = Cert.Mlp.yOf X' T' W0' b0 W1' b1 W2' b2 A0' a0 A1' a1 A2' C0' c0 C1' c1 C2' (ix1 n) := by
  subst hX hW0 hW1 hW2 hA0 hA1 hA2 hC0 hC1 hC2
  have e0 : (fun j => b0r (ix2 (0 : Fin 1) j)) = fun j => b0 (ix1 j) := funext h0
  have e1 : (fun j => b1r (ix2 (0 : Fin 1) j)) = fun j => b1 (ix1 j) := funext h1
  have e2 : (fun j => b2r (ix2 (0 : Fin 1) j)) = fun j => b2 (ix1 j) := funext h2
  have ea0 : (fun j => a0r (ix2 (0 : Fin 1) j)) = fun j => a0 (ix1 j) := funext ha0
  have ea1 : (fun j => a1r (ix2 (0 : Fin 1) j)) = fun j => a1 (ix1 j) := funext ha1
  have ec0 : (fun j => c0r (ix2 (0 : Fin 1) j)) = fun j => c0 (ix1 j) := funext hc0
  have ec1 : (fun j => c1r (ix2 (0 : Fin 1) j)) = fun j => c1 (ix1 j) := funext hc1
  rw [yArr_apply]
  unfold yRow
  rw [e0, e1, e2, ea0, ea1, ec0, ec1, hT n]
  rfl

variable (m : (ℓ : Loc nD τ sig) → Buf (Elt Ideal) ℓ) (ρ : Dev nD → PrngReg)

/-- The first result as a function of the launch memory: the label's choice between the two heads, row by row. -/
def Y (c : Dev nD) : S65536.Idx → EReal :=
  Cert.Mlp.yOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))

/-- The second result as a function of the launch memory: the shared representation of every row. -/
def Out (c : Dev nD) : S65536x512.Idx → EReal :=
  Cert.Mlp.outOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The second output after the region, in terms of the arguments. -/
theorem out_args (c : Dev nD) : (dats m 0 c).arrAt 19 cfg0.N = Out m c :=
  (final19 m c).trans (outArr_eq_outOf (V_main_arg0 m c) (V_v8 m c) (V_v9 m c) (V_v10 m c) (V_v1 m c) (V_v2 m c) (V_v3 m c))

/-- The first output after the region, read at (n, 0), in terms of the arguments. -/
theorem y_args (c : Dev nD) (n : Fin 65536) : (dats m 0 c).arrAt 18 cfg0.N (ix2 n (0 : Fin 1)) = Y m c (ix1 n) :=
  (congrFun (final18 m c) (ix2 n (0 : Fin 1))).trans
    (yArr_eq_yOf (V_main_arg0 m c) (V_v0 m c) (V_v8 m c) (V_v9 m c) (V_v10 m c) (V_v11 m c) (V_v12 m c) (V_v13 m c)
      (V_v14 m c) (V_v15 m c) (V_v16 m c) (V_v1 m c) (V_v2 m c) (V_v3 m c) (V_v4 m c) (V_v5 m c) (V_v6 m c) (V_v7 m c) n)

/-- After the line that follows the region, the first result is the result vector: the column read at (n, 0). -/
theorem tail_v18 (c : Dev nD) :
    Pipeline.afterTail₀ cfgs (dats m) 0 (V0 m) [hostOps1] c main_v18 = Y m c := by
  unfold Pipeline.afterTail₀
  show StableHlo.after hostOps1 _ (Proc.devRef .tc main_v18) = _
  after_results
  funext i
  obtain ⟨n, rfl⟩ : ∃ n : Fin 65536, i = ix1 n := ⟨i 0, eq_ix1 i⟩
  have hw : Pipeline.withArrays (cfgs 0).spec c (V0 m c) (fun w => (dats m 0 c).arrAt w (cfgs 0).N) (Proc.devRef .tc main_v17_0)
      = (dats m 0 c).arrAt 18 cfg0.N :=
    Pipeline.withArrays_arr (cfgs 0).spec launch0.win.arr_inj c (V0 m c) _ 18
  refine (shapeCast_a1_a_apply _ _ n).trans ?_
  exact (congrFun hw (ix2 n (0 : Fin 1))).trans (y_args m c n)

/-- The run, read: every weakly fair execution ends with the two results at their functions of the arguments and
    the arguments as launched. -/
theorem run : θ_run defs (onTc (τ := τ) (main (F := Ideal))) ⟨m, fun _ => 0, ρ⟩ fun r => ∀ c : Dev nD,
      r.2.mem ((c.tc : Thread nD τ).loc main_v18) = Y m c
      ∧ r.2.mem ((c.tc : Thread nD τ).loc main_v17_1) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨
      ((h c).2 main_v18 (Pipeline.mem_restRefs_of main_v18 (by decide) (by decide))).trans (tail_v18 m c),
      ((h c).1 19).trans (out_args m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩)
    (run_main m ρ)

end Cert.KernelIdeal.Run

end
-- ==== Proof.RefValue.lean ====
/-
  The reference's stages are the specification.

  Read one operation at a time, the reference's shared representation at (n, q) is three dense layers of row n of the
  input (the first two followed by max(·, 0)), and each head's value at n is two more hidden layers and a product
  with the head's output column; the select keeps the first head where the label is zero. Every host matrix product
  is the plain sum of products, every bias is its vector broadcast down the rows, and the index maps of the
  broadcasts and reshapes are the evident ones.
-/
import proofs.«113489_j48747878810213_1_alg».proof.Proof.Gen.ReferenceIdeal.Read
import proofs.«113489_j48747878810213_1_alg».proof.Proof.Spec

noncomputable section

open scoped BigOperators
open Idealize.ShloMosaic Idealize.ShloMosaic.ValueIdx

namespace Cert.ReferenceIdeal.RefValue

open Cert.ReferenceIdeal Cert.ReferenceIdeal.Read

/-! ## The index maps: a matrix product's operands at (n, j) and k are (n, k) and (k, j); a bias at (n, j) is read at j -/

theorem l0 (n : Fin 65536) (j : Fin 1024) (k : Fin 512) : lidx_main_v0 (ix2 n j) k = ix2 n k :=
  funext fun a => Fin.ext (by match a with | ⟨0, _⟩ => rfl | ⟨1, _⟩ => rfl)
theorem r0 (n : Fin 65536) (j : Fin 1024) (k : Fin 512) : ridx_main_v0 (ix2 n j) k = ix2 k j :=
  funext fun a => Fin.ext (by match a with | ⟨0, _⟩ => rfl | ⟨1, _⟩ => rfl)
theorem l5 (n : Fin 65536) (j : Fin 1024) (k : Fin 1024) : lidx_main_v5 (ix2 n j) k = ix2 n k :=
  funext fun a => Fin.ext (by match a with | ⟨0, _⟩ => rfl | ⟨1, _⟩ => rfl)
theorem r5 (n : Fin 65536) (j : Fin 1024) (k : Fin 1024) : ridx_main_v5 (ix2 n j) k = ix2 k j :=
  funext fun a => Fin.ext (by match a with | ⟨0, _⟩ => rfl | ⟨1, _⟩ => rfl)
theorem l10 (n : Fin 65536) (j : Fin 512) (k : Fin 1024) : lidx_main_v10 (ix2 n j) k = ix2 n k :=
  funext fun a => Fin.ext (by match a with | ⟨0, _⟩ => rfl | ⟨1, _⟩ => rfl)
theorem r10 (n : Fin 65536) (j : Fin 512) (k : Fin 1024) : ridx_main_v10 (ix2 n j) k = ix2 k j :=
  funext fun a => Fin.ext (by match a with | ⟨0, _⟩ => rfl | ⟨1, _⟩ => rfl)
theorem l14 (n : Fin 65536) (j : Fin 512) (k : Fin 512) : lidx_main_v14 (ix2 n j) k = ix2 n k :=
  funext fun a => Fin.ext (by match a with | ⟨0, _⟩ => rfl | ⟨1, _⟩ => rfl)
theorem r14 (n : Fin 65536) (j : Fin 512) (k : Fin 512) : ridx_main_v14 (ix2 n j) k = ix2 k j :=
  funext fun a => Fin.ext (by match a with | ⟨0, _⟩ => rfl | ⟨1, _⟩ => rfl)
theorem l19 (n : Fin 65536) (j : Fin 512) (k : Fin 512) : lidx_main_v19 (ix2 n j) k = ix2 n k :=
  funext fun a => Fin.ext (by match a with | ⟨0, _⟩ => rfl | ⟨1, _⟩ => rfl)
theorem r19 (n : Fin 65536) (j : Fin 512) (k : Fin 512) : ridx_main_v19 (ix2 n j) k = ix2 k j :=
  funext fun a => Fin.ext (by match a with | ⟨0, _⟩ => rfl | ⟨1, _⟩ => rfl)
theorem l24 (n : Fin 65536) (k : Fin 512) : lidx_main_v24 (ix2 n (0 : Fin 1)) k = ix2 n k :=
  funext fun a => Fin.ext (by match a with | ⟨0, _⟩ => rfl | ⟨1, _⟩ => rfl)
theorem r24 (n : Fin 65536) (k : Fin 512) : ridx_main_v24 (ix2 n (0 : Fin 1)) k = ix2 k (0 : Fin 1) :=
  funext fun a => Fin.ext (by match a with | ⟨0, _⟩ => rfl | ⟨1, _⟩ => rfl)
theorem l26 (n : Fin 65536) (j : Fin 512) (k : Fin 512) : lidx_main_v26 (ix2 n j) k = ix2 n k :=
  funext fun a => Fin.ext (by match a with | ⟨0, _⟩ => rfl | ⟨1, _⟩ => rfl)
theorem r26 (n : Fin 65536) (j : Fin 512) (k : Fin 512) : ridx_main_v26 (ix2 n j) k = ix2 k j :=
  funext fun a => Fin.ext (by match a with | ⟨0, _⟩ => rfl | ⟨1, _⟩ => rfl)
theorem l31 (n : Fin 65536) (j : Fin 512) (k : Fin 512) : lidx_main_v31 (ix2 n j) k = ix2 n k :=
  funext fun a => Fin.ext (by match a with | ⟨0, _⟩ => rfl | ⟨1, _⟩ => rfl)
theorem r31 (n : Fin 65536) (j : Fin 512) (k : Fin 512) : ridx_main_v31 (ix2 n j) k = ix2 k j :=
  funext fun a => Fin.ext (by match a with | ⟨0, _⟩ => rfl | ⟨1, _⟩ => rfl)
theorem l36 (n : Fin 65536) (k : Fin 512) : lidx_main_v36 (ix2 n (0 : Fin 1)) k = ix2 n k :=
  funext fun a => Fin.ext (by match a with | ⟨0, _⟩ => rfl | ⟨1, _⟩ => rfl)
theorem r36 (n : Fin 65536) (k : Fin 512) : ridx_main_v36 (ix2 n (0 : Fin 1)) k = ix2 k (0 : Fin 1) :=
  funext fun a => Fin.ext (by match a with | ⟨0, _⟩ => rfl | ⟨1, _⟩ => rfl)

theorem bi0 (n : Fin 65536) (j : Fin 1024) : idx_main_v1 (idx_main_v2 (ix2 n j)) = ix1 j :=
  funext fun a => Fin.ext (by match a with | ⟨0, _⟩ => rfl)
theorem bi1 (n : Fin 65536) (j : Fin 1024) : idx_main_v6 (idx_main_v7 (ix2 n j)) = ix1 j :=
  funext fun a => Fin.ext (by match a with | ⟨0, _⟩ => rfl)
theorem bi2 (n : Fin 65536) (j : Fin 512) : idx_main_v11 (idx_main_v12 (ix2 n j)) = ix1 j :=
  funext fun a => Fin.ext (by match a with | ⟨0, _⟩ => rfl)
theorem bia0 (n : Fin 65536) (j : Fin 512) : idx_main_v15 (idx_main_v16 (ix2 n j)) = ix1 j :=
  funext fun a => Fin.ext (by match a with | ⟨0, _⟩ => rfl)
theorem bia1 (n : Fin 65536) (j : Fin 512) : idx_main_v20 (idx_main_v21 (ix2 n j)) = ix1 j :=
  funext fun a => Fin.ext (by match a with | ⟨0, _⟩ => rfl)
theorem bic0 (n : Fin 65536) (j : Fin 512) : idx_main_v27 (idx_main_v28 (ix2 n j)) = ix1 j :=
  funext fun a => Fin.ext (by match a with | ⟨0, _⟩ => rfl)
theorem bic1 (n : Fin 65536) (j : Fin 512) : idx_main_v32 (idx_main_v33 (ix2 n j)) = ix1 j :=
  funext fun a => Fin.ext (by match a with | ⟨0, _⟩ => rfl)
theorem col25 (n : Fin 65536) : idx_main_v25 (ix1 n) = ix2 n (0 : Fin 1) :=
  funext fun a => Fin.ext (by match a with | ⟨0, _⟩ => exact Nat.div_one _ | ⟨1, _⟩ => rfl)
theorem col37 (n : Fin 65536) : idx_main_v37 (ix1 n) = ix2 n (0 : Fin 1) :=
  funext fun a => Fin.ext (by match a with | ⟨0, _⟩ => exact Nat.div_one _ | ⟨1, _⟩ => rfl)

section
variable (x0 : (⟨S65536x512, .f32⟩ : BufTy).Contents (Elt Ideal)) (x1 : (⟨S65536, .i32⟩ : BufTy).Contents (Elt Ideal))
  (x2 : (⟨S512x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x512, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))
  (x10 : (⟨S512x512, .f32⟩ : BufTy).Contents (Elt Ideal)) (x11 : (⟨S512, .f32⟩ : BufTy).Contents (Elt Ideal))
  (x12 : (⟨S512x1, .f32⟩ : BufTy).Contents (Elt Ideal))
  (x13 : (⟨S512x512, .f32⟩ : BufTy).Contents (Elt Ideal)) (x14 : (⟨S512, .f32⟩ : BufTy).Contents (Elt Ideal))
  (x15 : (⟨S512x512, .f32⟩ : BufTy).Contents (Elt Ideal)) (x16 : (⟨S512, .f32⟩ : BufTy).Contents (Elt Ideal))
  (x17 : (⟨S512x1, .f32⟩ : BufTy).Contents (Elt Ideal))

/-- The shared representation's stage at (n, q). -/
theorem shared_apply (n : Fin 65536) (q : Fin 512) :
    val_main_v13 (F := Ideal) x0 x2 x3 x4 x5 x6 x7 (ix2 n q)
      = Cert.Mlp.shared (fun k => x0 (ix2 n k)) x2 (fun j => x3 (ix1 j)) x4 (fun j => x5 (ix1 j)) x6 (fun j => x7 (ix1 j)) q := by
  simp only [val_main_v13_apply, val_main_v12_apply, val_main_v11_apply, val_main_v10_apply, val_main_v9_apply,
    val_main_call1_v0_apply, val_main_call1_cst_apply, val_main_v8_apply, val_main_v7_apply, val_main_v6_apply,
    val_main_v5_apply, val_main_v4_apply, val_main_call0_v0_apply, val_main_call0_cst_apply, val_main_v3_apply,
    val_main_v2_apply, val_main_v1_apply, val_main_v0_apply, l0, r0, l5, r5, l10, r10, bi0, bi1, bi2]
  simp only [Ideal.addf_def, Ideal.maximumf_def, Ideal.ofBits_def, Ideal.ofBits_zero_f32]
  rfl

/-- The first head's stage at n. -/
theorem headA_apply (n : Fin 65536) :
    val_main_v25 (F := Ideal) x0 x2 x3 x4 x5 x6 x7 x8 x9 x10 x11 x12 (ix1 n)
      = Cert.Mlp.head (Cert.Mlp.shared (fun k => x0 (ix2 n k)) x2 (fun j => x3 (ix1 j)) x4 (fun j => x5 (ix1 j)) x6 (fun j => x7 (ix1 j)))
          x8 (fun j => x9 (ix1 j)) x10 (fun j => x11 (ix1 j)) x12 := by
  simp only [val_main_v25_apply, col25, val_main_v24_apply, l24, r24, val_main_v23_apply, val_main_call3_v0_apply,
    val_main_call3_cst_apply, val_main_v22_apply, val_main_v21_apply, val_main_v20_apply, val_main_v19_apply, l19, r19, bia1,
    val_main_v18_apply, val_main_call2_v0_apply, val_main_call2_cst_apply, val_main_v17_apply, val_main_v16_apply,
    val_main_v15_apply, val_main_v14_apply, l14, r14, bia0, shared_apply]
  simp only [Ideal.addf_def, Ideal.maximumf_def, Ideal.ofBits_def, Ideal.ofBits_zero_f32]
  rfl

/-- The second head's stage at n. -/
theorem headC_apply (n : Fin 65536) :
    val_main_v37 (F := Ideal) x0 x2 x3 x4 x5 x6 x7 x13 x14 x15 x16 x17 (ix1 n)
      = Cert.Mlp.head (Cert.Mlp.shared (fun k => x0 (ix2 n k)) x2 (fun j => x3 (ix1 j)) x4 (fun j => x5 (ix1 j)) x6 (fun j => x7 (ix1 j)))
          x13 (fun j => x14 (ix1 j)) x15 (fun j => x16 (ix1 j)) x17 := by
  simp only [val_main_v37_apply, col37, val_main_v36_apply, l36, r36, val_main_v35_apply, val_main_call5_v0_apply,
    val_main_call5_cst_apply, val_main_v34_apply, val_main_v33_apply, val_main_v32_apply, val_main_v31_apply, l31, r31, bic1,
    val_main_v30_apply, val_main_call4_v0_apply, val_main_call4_cst_apply, val_main_v29_apply, val_main_v28_apply,
    val_main_v27_apply, val_main_v26_apply, l26, r26, bic0, shared_apply]
  simp only [Ideal.addf_def, Ideal.maximumf_def, Ideal.ofBits_def, Ideal.ofBits_zero_f32]
  rfl

/-- The reference's second result is the shared representation of every row. -/
theorem out_eq : val_main_v13 (F := Ideal) x0 x2 x3 x4 x5 x6 x7 = Cert.Mlp.outOf x0 x2 x3 x4 x5 x6 x7 := by
  funext i
  obtain ⟨n, q, rfl⟩ : ∃ (n : Fin 65536) (q : Fin 512), i = ix2 n q := ⟨i 0, i 1, eq_ix2 i⟩
  exact shared_apply x0 x2 x3 x4 x5 x6 x7 n q

/-- The reference's first result is the label's choice between the two heads at every row. -/
theorem y_eq : val_main_v40 (F := Ideal) x0 x1 x2 x3 x4 x5 x6 x7 x8 x9 x10 x11 x12 x13 x14 x15 x16 x17
    = Cert.Mlp.yOf x0 x1 x2 x3 x4 x5 x6 x7 x8 x9 x10 x11 x12 x13 x14 x15 x16 x17 := by
  funext i
  obtain ⟨n, rfl⟩ : ∃ n : Fin 65536, i = ix1 n := ⟨i 0, eq_ix1 i⟩
  rw [val_main_v40_apply, val_main_v39_apply, val_main_v38_apply, val_main_c_apply, headA_apply, headC_apply]
  rfl

end

end Cert.ReferenceIdeal.RefValue

end
-- ==== Proof.lean ====
/-
  A two-headed multilayer perceptron, computed block by block on the chip and as whole arrays on the host, is one
  function of its arguments on the extended reals.

  The kernel walks the 65536 input rows in 64 blocks of 1024 rows with every weight resident; for each row it
  computes the shared representation (three dense layers, the first two followed by max(·, 0)), stores it, runs the
  two heads on it (two hidden layers and a product with one column each) and keeps the first head's value where the
  row's label is zero and the second's elsewhere. The reference does the same with whole-array matrix products. On
  the extended reals the casts to the narrow float format are the identity and a matrix product into a zero
  accumulator is the plain sum of products, so both programs compute, entry by entry, the same sums of the same
  products: no law of arithmetic beyond that is used, and the precondition is never opened.

  The frames of the two kernel programs are the generated ones; the reference's frame is its generated run with the
  results dropped; the idealization rewrote nothing, so it is preserved trivially. What is proved by hand is that
  the kernel's two output arrays and the reference's two results are the specification's two functions of the
  arguments (Proof/Spec.lean): the kernel's through what each grid point writes back and the tiling of the outputs
  by the 64 blocks, the reference's through its operations read one at a time.
-/
import proofs.«113489_j48747878810213_1_alg».proof.Defs
import proofs.«113489_j48747878810213_1_alg».proof.Proof.Gen.Kernel
import proofs.«113489_j48747878810213_1_alg».proof.Proof.Gen.Kernel.Skeleton
import proofs.«113489_j48747878810213_1_alg».proof.Proof.Gen.Kernel.Launch
import proofs.«113489_j48747878810213_1_alg».proof.Proof.Gen.Kernel.Points
import proofs.«113489_j48747878810213_1_alg».proof.Proof.Gen.Kernel.Frame
import proofs.«113489_j48747878810213_1_alg».proof.Proof.Gen.KernelIdeal
import proofs.«113489_j48747878810213_1_alg».proof.Proof.Gen.KernelIdeal.Skeleton
import proofs.«113489_j48747878810213_1_alg».proof.Proof.Gen.KernelIdeal.Launch
import proofs.«113489_j48747878810213_1_alg».proof.Proof.Gen.KernelIdeal.Points
import proofs.«113489_j48747878810213_1_alg».proof.Proof.Gen.KernelIdeal.Frame
import proofs.«113489_j48747878810213_1_alg».proof.Proof.Gen.ReferenceIdeal
import proofs.«113489_j48747878810213_1_alg».proof.Proof.Gen.Pre_finite_inputs
import proofs.«113489_j48747878810213_1_alg».proof.Proof.Gen.ReferenceIdeal.Run
import proofs.«113489_j48747878810213_1_alg».proof.Proof.Gen.ReferenceIdeal.Read
import proofs.«113489_j48747878810213_1_alg».proof.Proof.KernelRun
import proofs.«113489_j48747878810213_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the label's choice between the two heads as the
    first result and the shared representations as the second: each side's result is the specification's function of
    its own arguments, and the arguments agree. -/
theorem algebraic : Cert.algebraic_KernelIdeal_ReferenceIdeal := by
  intro m ρ m' ρ' _ hagree
  refine ⟨fun c => Cert.KernelIdeal.Run.Y m c, fun c => Cert.KernelIdeal.Run.Out m c, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17⟩ := hagree c
    refine (Cert.ReferenceIdeal.Read.val_main_v40_eq m' c).trans ?_
    refine (Cert.ReferenceIdeal.RefValue.y_eq _ _ _ _ _ _ _ _ _ _ _ _ _ _ _ _ _ _).trans ?_
    unfold Cert.KernelIdeal.Run.Y
    rw [a0, a1, a2, a3, a4, a5, a6, a7, a8, a9, a10, a11, a12, a13, a14, a15, a16, a17]
  · obtain ⟨a0, a1, a2, a3, a4, a5, a6, a7, a8, a9, a10, a11, a12, a13, a14, a15, a16, a17⟩ := hagree c
    refine (Cert.ReferenceIdeal.Read.val_main_v13_eq _ _ _ _ _ _ _).trans ?_
    refine (Cert.ReferenceIdeal.RefValue.out_eq _ _ _ _ _ _ _).trans ?_
    unfold Cert.KernelIdeal.Run.Out
    rw [a0, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
